-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x10 : Shape := ⟨2, ![65536, 10]⟩
abbrev S512 : Shape := ⟨1, ![512]⟩
abbrev S8x512 : Shape := ⟨2, ![8, 512]⟩
abbrev S512x512 : Shape := ⟨2, ![512, 512]⟩
abbrev S512x2 : Shape := ⟨2, ![512, 2]⟩
abbrev S2 : Shape := ⟨1, ![2]⟩
abbrev S_ : Shape := ⟨0, ![]⟩

class Facts : Prop where
  bcast_S_S65536x10 : S_.BroadcastsInDim S65536x10 (![] : Fin 0 → Fin S65536x10.rank)
  reducesTo_S65536x10_S_d0_1 : S65536x10.ReducesTo [0, 1] S_
  h_S_ : 0 < S_.numel
  bcast_S_S512 : S_.BroadcastsInDim S512 (![] : Fin 0 → Fin S512.rank)
  reducesTo_S512_S_d0 : S512.ReducesTo [0] S_
  bcast_S_S8x512 : S_.BroadcastsInDim S8x512 (![] : Fin 0 → Fin S8x512.rank)
  reducesTo_S8x512_S_d0_1 : S8x512.ReducesTo [0, 1] S_
  bcast_S_S512x512 : S_.BroadcastsInDim S512x512 (![] : Fin 0 → Fin S512x512.rank)
  reducesTo_S512x512_S_d0_1 : S512x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S512x2 .f32) (main_arg8 : FVec F S2 .f32) (main_v33 : IVec S_ 1) : IVec S_ 1 :=
  let main_v34 : FVec F S512x2 .f32 := Host.absf main_arg7
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S8x512 .f32) (main_arg5 : FVec F S512x512 .f32) (main_arg6 : FVec F S512 .f32) (main_arg7 : FVec F S512x2 .f32) (main_arg8 : FVec F S2 .f32) (main_v13 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v13 main_v17
  let main_v19 : FVec F S8x512 .f32 := Host.absf main_arg4
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S65536x10 .f32) (main_arg1 : FVec F S512 .f32) (main_arg2 : FVec F S512 .f32) (main_arg3 : FVec F S8x512 .f32) (main_arg4 : FVec F S8x512 .f32) (main_arg5 : FVec F S512x512 .f32) (main_arg6 : FVec F S512 .f32) (main_arg7 : FVec F S512x2 .f32) (main_arg8 : FVec F S2 .f32) : IVec S_ 1 :=
  let main_v0 : FVec F S65536x10 .f32 := Host.absf main_arg0
  let main_cst : FVec F S_ .f32 := constant S_ .f32 0x7F800000#32
  let main_v1 : FVec F S65536x10 .f32 := broadcastInDim S65536x10 ![] bcast_S_S65536x10 main_cst
  let main_v2 : IVec S65536x10 1 := cmpf .olt main_v0 main_v1
  let main_c : IVec S_ 1 := constantI S_ 1 1#1
  let main_v3 : IVec S_ 1 := (fun x v => Host.reduce IntOp.andi x v reducesTo_S65536x10_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8x512 .f32 := Host.absf main_arg3
  let main_cst_4 : FVec F S_ .f32 := constant S_ .f32 0x7F800000#32
  let main_v15 : FVec F S8x512 .f32 := broadcastInDim S8x512 ![] bcast_S_S8x512 main_cst_4
  let main_v16 : IVec S8x512 1 := cmpf .olt main_v14 main_v15
  fn_part1 (F := F) main_arg4 main_arg5 main_arg6 main_arg7 main_arg8 main_v13 main_v16
-- ==== Kernel.lean ====
abbrev S65536x10 : Shape := ⟨2, ![65536, 10]⟩
abbrev S512 : Shape := ⟨1, ![512]⟩
abbrev S8x512 : Shape := ⟨2, ![8, 512]⟩
abbrev S512x512 : Shape := ⟨2, ![512, 512]⟩
abbrev S512x2 : Shape := ⟨2, ![512, 2]⟩
abbrev S2 : Shape := ⟨1, ![2]⟩
abbrev S65536x2 : Shape := ⟨2, ![65536, 2]⟩
abbrev S1024x10 : Shape := ⟨2, ![1024, 10]⟩
abbrev S1024x2 : Shape := ⟨2, ![1024, 2]⟩
abbrev S1024x8 : Shape := ⟨2, ![1024, 8]⟩
abbrev S1024x1 : Shape := ⟨2, ![1024, 1]⟩
abbrev S1x512 : Shape := ⟨2, ![1, 512]⟩
abbrev S1024x512 : Shape := ⟨2, ![1024, 512]⟩
abbrev S1x2 : Shape := ⟨2, ![1, 2]⟩

abbrev nBuf : Space → Nat
  | .hbm => 12
  | .vmem => 12
  | .smem => 0
  | _ => 0

abbrev bufTy : (tb : Table) → Fin (tcTables nBuf tb) → BufTy
  | .hbm, ⟨0, _⟩ => ⟨S65536x10, .f32⟩
  | .hbm, ⟨1, _⟩ => ⟨S512, .f32⟩
  | .hbm, ⟨2, _⟩ => ⟨S512, .f32⟩
  | .hbm, ⟨3, _⟩ => ⟨S8x512, .f32⟩
  | .hbm, ⟨4, _⟩ => ⟨S8x512, .f32⟩
  | .hbm, ⟨5, _⟩ => ⟨S512x512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S512x512, .bf16⟩
  | .hbm, ⟨10, _⟩ => ⟨S512x2, .bf16⟩
  | .hbm, ⟨11, _⟩ => ⟨S65536x2, .f32⟩
  | .local _ .vmem, ⟨0, _⟩ => ⟨S1024x10, .f32⟩
  | .local _ .vmem, ⟨1, _⟩ => ⟨S1024x10, .f32⟩
  | .local _ .vmem, ⟨2, _⟩ => ⟨S512, .f32⟩
  | .local _ .vmem, ⟨3, _⟩ => ⟨S512, .f32⟩
  | .local _ .vmem, ⟨4, _⟩ => ⟨S8x512, .f32⟩
  | .local _ .vmem, ⟨5, _⟩ => ⟨S8x512, .f32⟩
  | .local _ .vmem, ⟨6, _⟩ => ⟨S512x512, .bf16⟩
  | .local _ .vmem, ⟨7, _⟩ => ⟨S512, .f32⟩
  | .local _ .vmem, ⟨8, _⟩ => ⟨S512x2, .bf16⟩
  | .local _ .vmem, ⟨9, _⟩ => ⟨S2, .f32⟩
  | .local _ .vmem, ⟨10, _⟩ => ⟨S1024x2, .f32⟩
  | .local _ .vmem, ⟨11, _⟩ => ⟨S1024x2, .f32⟩
  | _, _ => ⟨S65536x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S1024x10_S1024x10_0_0 : ∀ a, (![0, 0] : Fin 2 → Nat) a + S1024x10.size a ≤ S1024x10.size a
  h_S1024x10 : 0 < S1024x10.numel
  slices_S1024x10_o0_0_S1024x8 : S1024x10.Slices ![0, 0] S1024x8
  slices_S1024x10_o0_8_S1024x1 : S1024x10.Slices ![0, 8] S1024x1
  slices_S1024x10_o0_9_S1024x1 : S1024x10.Slices ![0, 9] S1024x1
  inb_S512_S512_0 : ∀ a, (![0] : Fin 1 → Nat) a + S512.size a ≤ S512.size a
  h_S512 : 0 < S512.numel
  shapeCasts_S512_S1x512 : S512.ShapeCasts S1x512
  broadcasts_S1024x1_S1024x512 : S1024x1.Broadcasts S1024x512
  broadcasts_S1x512_S1024x512 : S1x512.Broadcasts S1024x512
  inb_S8x512_S8x512_0_0 : ∀ a, (![0, 0] : Fin 2 → Nat) a + S8x512.size a ≤ S8x512.size a
  h_S8x512 : 0 < S8x512.numel
  slices_S1024x8_o0_0_S1024x1 : S1024x8.Slices ![0, 0] S1024x1
  slices_S8x512_o0_0_S1x512 : S8x512.Slices ![0, 0] S1x512
  slices_S1024x8_o0_1_S1024x1 : S1024x8.Slices ![0, 1] S1024x1
  slices_S8x512_o1_0_S1x512 : S8x512.Slices ![1, 0] S1x512
  slices_S1024x8_o0_2_S1024x1 : S1024x8.Slices ![0, 2] S1024x1
  slices_S8x512_o2_0_S1x512 : S8x512.Slices ![2, 0] S1x512
  slices_S1024x8_o0_3_S1024x1 : S1024x8.Slices ![0, 3] S1024x1
  slices_S8x512_o3_0_S1x512 : S8x512.Slices ![3, 0] S1x512
  slices_S1024x8_o0_4_S1024x1 : S1024x8.Slices ![0, 4] S1024x1
  slices_S8x512_o4_0_S1x512 : S8x512.Slices ![4, 0] S1x512
  slices_S1024x8_o0_5_S1024x1 : S1024x8.Slices ![0, 5] S1024x1
  slices_S8x512_o5_0_S1x512 : S8x512.Slices ![5, 0] S1x512
  slices_S1024x8_o0_6_S1024x1 : S1024x8.Slices ![0, 6] S1024x1
  slices_S8x512_o6_0_S1x512 : S8x512.Slices ![6, 0] S1x512
  slices_S1024x8_o0_7_S1024x1 : S1024x8.Slices ![0, 7] S1024x1
  slices_S8x512_o7_0_S1x512 : S8x512.Slices ![7, 0] S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S1024x512_S512x512_S1024x512_1_0_0_1_n_n_wf : DotDims.WF S1024x512 S512x512 S1024x512 [1] [0] [0] [1] [] []
  dot_S1024x512_S512x2_S1024x2_1_0_0_1_n_n_wf : DotDims.WF S1024x512 S512x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S65536x10.size a
  hwx0_0 : ∀ i : grid0.Coords, EltTy.bits .f32 = 32 ∨ (Rect.block (s := S65536x10) S1024x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x512.size a
  hwx0_4 : ∀ i : grid0.Coords, EltTy.bits .f32 = 32 ∨ (Rect.block (s := S8x512) S8x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2.size a ≤ S512x2.size a
  hwx0_7 : ∀ i : grid0.Coords, EltTy.bits .bf16 = 32 ∨ (Rect.block (s := S512x2) S512x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x2.size a ≤ S65536x2.size a
  hwx0_9 : ∀ i : grid0.Coords, EltTy.bits .f32 = 32 ∨ (Rect.block (s := S65536x2) S1024x2.size (cc0_transform_9 i) (hinb0_9 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x2_S1024x2_1_0_0_1_n_n : DotDims S1024x512 S512x2 S1024x2 where
  lhsContracting := [1]
  rhsContracting := [0]
  lhsNonContracting := [0]
  rhsNonContracting := [1]
  lhsBatch := []
  rhsBatch := []
  wf := dot_S1024x512_S512x2_S1024x2_1_0_0_1_n_n_wf

abbrev win0_0 : Pipeline.Window sig grid0 :=
  Pipeline.Window.ofSpec (Memref.whole main_arg0) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1024x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x10 : Shape := ⟨2, ![65536, 10]⟩
abbrev S512 : Shape := ⟨1, ![512]⟩
abbrev S8x512 : Shape := ⟨2, ![8, 512]⟩
abbrev S512x512 : Shape := ⟨2, ![512, 512]⟩
abbrev S512x2 : Shape := ⟨2, ![512, 2]⟩
abbrev S2 : Shape := ⟨1, ![2]⟩
abbrev S65536x8 : Shape := ⟨2, ![65536, 8]⟩
abbrev S65536x1 : Shape := ⟨2, ![65536, 1]⟩
abbrev S1x512 : Shape := ⟨2, ![1, 512]⟩
abbrev S65536x512 : Shape := ⟨2, ![65536, 512]⟩
abbrev S_ : Shape := ⟨0, ![]⟩
abbrev S65536x2 : Shape := ⟨2, ![65536, 2]⟩
abbrev S1x2 : Shape := ⟨2, ![1, 2]⟩

abbrev nBuf : Space → Nat
  | .hbm => 39
  | .vmem => 0
  | .smem => 0
  | _ => 0

abbrev bufTy : (tb : Table) → Fin (tcTables nBuf tb) → BufTy
  | .hbm, ⟨0, _⟩ => ⟨S65536x10, .f32⟩
  | .hbm, ⟨1, _⟩ => ⟨S512, .f32⟩
  | .hbm, ⟨2, _⟩ => ⟨S512, .f32⟩
  | .hbm, ⟨3, _⟩ => ⟨S8x512, .f32⟩
  | .hbm, ⟨4, _⟩ => ⟨S8x512, .f32⟩
  | .hbm, ⟨5, _⟩ => ⟨S512x512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S65536x8, .f32⟩
  | .hbm, ⟨10, _⟩ => ⟨S65536x1, .f32⟩
  | .hbm, ⟨11, _⟩ => ⟨S65536x1, .f32⟩
  | .hbm, ⟨12, _⟩ => ⟨S1x512, .f32⟩
  | .hbm, ⟨13, _⟩ => ⟨S65536x512, .f32⟩
  | .hbm, ⟨14, _⟩ => ⟨S65536x512, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S1x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S65536x2, .f32⟩
  | .hbm, ⟨36, _⟩ => ⟨S1x2, .f32⟩
  | .hbm, ⟨37, _⟩ => ⟨S65536x2, .f32⟩
  | .hbm, ⟨38, _⟩ => ⟨S65536x2, .f32⟩
  | _, _ => ⟨S65536x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  slices_S65536x10_S65536x8_0_0 : S65536x10.Slices ![0, 0] S65536x8
  slices_S65536x10_S65536x1_0_8 : S65536x10.Slices ![0, 8] S65536x1
  slices_S65536x10_S65536x1_0_9 : S65536x10.Slices ![0, 9] S65536x1
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  dot_S65536x8_S8x512_S65536x512_1_0_0_1_n_n_wf : DotDims.WF S65536x8 S8x512 S65536x512 [1] [0] [0] [1] [] []
  dot_S65536x512_S512x512_S65536x512_1_0_0_1_n_n_wf : DotDims.WF S65536x512 S512x512 S65536x512 [1] [0] [0] [1] [] []
  dot_S65536x512_S512x2_S65536x2_1_0_0_1_n_n_wf : DotDims.WF S65536x512 S512x2 S65536x2 [1] [0] [0] [1] [] []

variable [Facts₀]

def dot_S65536x8_S8x512_S65536x512_1_0_0_1_n_n : DotDims S65536x8 S8x512 S65536x512 where
  lhsContracting := [1]
  rhsContracting := [0]
  lhsNonContracting := [0]
  rhsNonContracting := [1]
  lhsBatch := []
  rhsBatch := []
  wf := dot_S65536x8_S8x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x2_S65536x2_1_0_0_1_n_n : DotDims S65536x512 S512x2 S65536x2 where
  lhsContracting := [1]
  rhsContracting := [0]
  lhsNonContracting := [0]
  rhsNonContracting := [1]
  lhsBatch := []
  rhsBatch := []
  wf := dot_S65536x512_S512x2_S65536x2_1_0_0_1_n_n_wf

class Facts : Prop extends Facts₀ where

variable [Facts]
-- ==== Proof.RowSpec.lean ====
/-
  The function both programs compute, one output row at a time.

  A row of the input holds ten numbers: eight expert weights `g₀ … g₇`, a value `δ` (column 8) and a value `φ`
  (column 9). With weight vectors `w1, b1`, two `8 × 512` expert tables `mw, mb`, and the two dense layers
  `(w2, b2)`, `(w3, b3)`, the row's output at column `o` is

      h₁ j = max ((δ · w1 j + b1 j) + (φ · ∑ₖ gₖ · mw k j + ∑ₖ gₖ · mb k j)) 0
      h₂ j = max (∑ₖ h₁ k · w2 k j + b2 j) 0
      out o = ∑ₖ h₂ k · w3 k o + b3 o

  over the extended reals. Nothing here depends on how many rows the input has or on how they are grouped into
  blocks: a row's output is a function of that row alone. The zero the maxima are taken against is kept as the
  word both programs print.

  Also here: a column broadcast over a row, read at an entry, and the sum of eight terms accumulated one after
  the other from zero, as a sum over `Fin 8`.
-/
import Idealize.ShloMosaic.Lib.ValueIdx
import Idealize.ShloMosaic.Lib.ValueLayout
import Idealize.ShloMosaic.PureOps.Ideal.Laws

noncomputable section

namespace Cert.Mlp

open Idealize.ShloMosaic Idealize.ShloMosaic.ValueIdx

/-- The word of `0.0`, as both programs print it. -/
abbrev zeroW : EReal := Ideal.ofBits .f32 0x00000000#32

/-- Expert column `k` of a ten-column row. -/
abbrev gcol (k : Fin 8) : Fin 10 := ⟨k.val, by have := k.isLt; omega⟩

/-- The first hidden layer of one row. -/
def hid1 (xr : Fin 10 → EReal) (w1 b1 : (⟨1, ![512]⟩ : Shape).Idx → EReal) (mw mb : (⟨2, ![8, 512]⟩ : Shape).Idx → EReal)
    (j : Fin 512) : EReal :=
  max ((xr 8 * w1 (ix1 j) + b1 (ix1 j))
    + (xr 9 * (∑ k : Fin 8, xr (gcol k) * mw (ix2 k j)) + ∑ k : Fin 8, xr (gcol k) * mb (ix2 k j))) zeroW

/-- The second hidden layer of one row, from the first. -/
def hid2 (h1 : Fin 512 → EReal) (w2 : (⟨2, ![512, 512]⟩ : Shape).Idx → EReal) (b2 : (⟨1, ![512]⟩ : Shape).Idx → EReal)
    (j : Fin 512) : EReal :=
  max ((∑ k : Fin 512, h1 k * w2 (ix2 k j)) + b2 (ix1 j)) zeroW

/-- The output of one row, from the second hidden layer. -/
def outOf (h2 : Fin 512 → EReal) (w3 : (⟨2, ![512, 2]⟩ : Shape).Idx → EReal) (b3 : (⟨1, ![2]⟩ : Shape).Idx → EReal)
    (o : Fin 2) : EReal :=
  (∑ k : Fin 512, h2 k * w3 (ix2 k o)) + b3 (ix1 o)

/-- One row's output as a function of the row and the nine weight arrays. -/
def outRow (xr : Fin 10 → EReal) (w1 b1 : (⟨1, ![512]⟩ : Shape).Idx → EReal) (mw mb : (⟨2, ![8, 512]⟩ : Shape).Idx → EReal)
    (w2 : (⟨2, ![512, 512]⟩ : Shape).Idx → EReal) (b2 : (⟨1, ![512]⟩ : Shape).Idx → EReal)
    (w3 : (⟨2, ![512, 2]⟩ : Shape).Idx → EReal) (b3 : (⟨1, ![2]⟩ : Shape).Idx → EReal) (o : Fin 2) : EReal :=
  outOf (hid2 (hid1 xr w1 b1 mw mb) w2 b2) w3 b3 o

/-- The whole result: row `i 0` of the output is `outRow` of row `i 0` of the input. -/
def wholeOut (X : (⟨2, ![65536, 10]⟩ : Shape).Idx → EReal) (w1 b1 : (⟨1, ![512]⟩ : Shape).Idx → EReal)
    (mw mb : (⟨2, ![8, 512]⟩ : Shape).Idx → EReal) (w2 : (⟨2, ![512, 512]⟩ : Shape).Idx → EReal)
    (b2 : (⟨1, ![512]⟩ : Shape).Idx → EReal) (w3 : (⟨2, ![512, 2]⟩ : Shape).Idx → EReal)
    (b3 : (⟨1, ![2]⟩ : Shape).Idx → EReal) : (⟨2, ![65536, 2]⟩ : Shape).Idx → EReal :=
  fun i => outRow (fun a => X (ix2 (i 0) a)) w1 b1 mw mb w2 b2 w3 b3 (i 1)

/-! ## A column broadcast over a row, read at an entry -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Eight terms added one after the other from zero -/

/-- Accumulating `f 0, …, f 7` one after the other onto the zero word is the sum over `Fin 8`. -/
theorem acc8_eq_sum (f : Fin 8 → EReal) :
    zeroW + f 0 + f 1 + f 2 + f 3 + f 4 + f 5 + f 6 + f 7 = ∑ k : Fin 8, f k := by
  rw [Fin.sum_univ_eight]
  show Ideal.ofBits .f32 0x00000000#32 + f 0 + f 1 + f 2 + f 3 + f 4 + f 5 + f 6 + f 7 = _
  rw [Ideal.ofBits_zero_f32, zero_add]

end Cert.Mlp

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KernelRow.lean ====
/-
  The kernel's body, read at one entry of its output block.

  The body works on a block of 1024 rows. It stores one value, an array of shape `[1024, 2]`, computed from the
  block `x0` of the input and from the eight weight arrays, which it sees whole. Read at entry `(p, q)` that
  value is `Mlp.outRow` of row `p` of the block: the body forms the expert sums by adding eight products one after
  the other onto a zero splat, which is the sum over the eight experts; its two matrix products accumulate into a
  zero splat and so are plain sums over the 512 hidden units; the narrowing of their operands to bf16 is the
  identity on extended reals; and every broadcast and slice only picks an entry.
-/
import proofs.«168016_j18631568130181_1_alg».proof.Proof.Gen.KernelIdeal.Skeleton
import proofs.«168016_j18631568130181_1_alg».proof.Proof.RowSpec
import proofs.«168016_j18631568130181_1_alg».proof.Proof.LibPlainDot

noncomputable section

namespace Cert.Mlp.KernelRow

open Cert.KernelIdeal Cert.KernelIdeal.Gen Idealize.ShloMosaic Idealize.ShloMosaic.ValueIdx Cert.Mlp

variable (x0 : FVec Ideal S1024x10 .f32) (x1 x2 : FVec Ideal S512 .f32) (x3 x4 : FVec Ideal S8x512 .f32)
variable (x5 : FVec Ideal S512x512 .bf16) (x6 : FVec Ideal S512 .f32) (x7 : FVec Ideal S512x2 .bf16) (x8 : FVec Ideal S2 .f32)

/-! ## Where a one-column or one-row slice sits -/

theorem lt_of_slices8 {e : Nat} (hs : S1024x8.Slices ![0, e] S1024x1) : e < 8 :=
  Nat.lt_of_lt_of_le (Nat.lt_succ_self e) (hs.2 1)

theorem lt_of_slices10 {e : Nat} (hs : S1024x10.Slices ![0, e] S1024x1) : e < 10 :=
  Nat.lt_of_lt_of_le (Nat.lt_succ_self e) (hs.2 1)

theorem lt_of_slicesRow {e : Nat} (hs : S8x512.Slices ![e, 0] S1x512) : e < 8 :=
  Nat.lt_of_lt_of_le (Nat.lt_succ_self e) (hs.2 0)

/-! ## Broadcasts of slices, at an entry -/

/-- Column `e` of the block's eight expert columns, spread along a row, is the block at `(p, e)`. -/
theorem col_apply (e : Nat) (hs : S1024x8.Slices ![0, e] S1024x1) (hb : S1024x1.Broadcasts S1024x512) (p : Fin 1024) (j : Fin 512) :
    broadcastTo S1024x512 (extractStridedSlice S1024x1 ![0, e] (k0_pay2 x0) hs) hb (ix2 p j)
      = x0 (ix2 p ⟨e, Nat.lt_trans (lt_of_slices8 hs) (by decide)⟩) := by
  rw [broadcastTo_a1_ab_apply]
  unfold k0_pay2
  refine (slice2_axis1_apply e _ hs p (0 : Fin 1) ⟨e, lt_of_slices8 hs⟩ rfl).trans ?_
  exact slice2_axis1_apply 0 x0 _ p ⟨e, lt_of_slices8 hs⟩ ⟨e, _⟩ (Nat.zero_add e).symm

/-- Column `e` of the block's ten columns, spread along a row, is the block at `(p, e)`. -/
theorem col10_apply (e : Nat) (hs : S1024x10.Slices ![0, e] S1024x1) (hb : S1024x1.Broadcasts S1024x512) (p : Fin 1024) (j : Fin 512) :
    broadcastTo S1024x512 (extractStridedSlice S1024x1 ![0, e] x0 hs) hb (ix2 p j) = x0 (ix2 p ⟨e, lt_of_slices10 hs⟩) := by
  rw [broadcastTo_a1_ab_apply, slice2_axis1_apply e x0 hs p (0 : Fin 1) ⟨e, lt_of_slices10 hs⟩ rfl]

/-- Row `e` of an expert table, spread over the block's rows, is the table at `(e, j)`. -/
theorem row_apply (T : FVec Ideal S8x512 .f32) (e : Nat) (hs : S8x512.Slices ![e, 0] S1x512) (hb : S1x512.Broadcasts S1024x512) (p : Fin 1024) (j : Fin 512) :
    broadcastTo S1024x512 (extractStridedSlice S1x512 ![e, 0] T hs) hb (ix2 p j) = T (ix2 ⟨e, lt_of_slicesRow hs⟩ j) := by
  rw [broadcastTo_1b_ab_apply, slice2_axis0_apply e T hs (0 : Fin 1) j ⟨e, lt_of_slicesRow hs⟩ rfl]

/-- A vector laid as one row and spread over rows is the vector at the column. -/
theorem vecRow_apply {a b : ℕ} (w : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ w hc) hb (ix2 p j) = w (ix1 j) := by
  rw [broadcastTo_1b_ab_apply, shapeCast_a_1a_apply]

/-! ## The first hidden layer before its maximum -/

/-- The sum the first maximum is taken of, at row `p` and hidden unit `j`: the affine term in `δ` plus `φ` times
    the expert-weighted row of `x3` plus the expert-weighted row of `x4`. The body adds the eight products of each
    expert sum one after the other onto zero. -/
theorem hidden_apply (p : Fin 1024) (j : Fin 512) :
    k0_pay11 (k0_pay2 x0) (k0_pay3 x0) (k0_pay4 x0 x1 x2) x3 x4 (k0_pay7 x0 x4) (k0_pay9 x0 x3) (k0_pay10 x0 x4) (ix2 p j)
      = (x0 (ix2 p 8) * x1 (ix1 j) + x2 (ix1 j))
        + (x0 (ix2 p 9) * (∑ k : Fin 8, x0 (ix2 p (gcol k)) * x3 (ix2 k j)) + ∑ k : Fin 8, x0 (ix2 p (gcol k)) * x4 (ix2 k j)) := by
  rw [← acc8_eq_sum, ← acc8_eq_sum]
  unfold k0_pay11 k0_pay4 k0_pay7 k0_pay9 k0_pay10 k0_pay5 k0_pay6 k0_pay8 k0_pay3
  simp only [addf_apply, mulf_apply, broadcast_apply, col_apply, col10_apply, row_apply, vecRow_apply]
  rfl

/-! ## The two dense layers -/

/-- The body's two matrix products contract the left operand's columns with the right operand's rows. -/
theorem dot1_eq : dot_S1024x512_S512x512_S1024x512_1_0_0_1_n_n = DotDims.plain 1024 512 512 := rfl
theorem dot2_eq : dot_S1024x512_S512x2_S1024x2_1_0_0_1_n_n = DotDims.plain 1024 512 2 := rfl

/-- From the first layer's pre-maximum values `v` of the block to the stored value at `(p, q)`: the two dense layers
    applied to row `p` of `max v 0`. -/
theorem out_apply (v : FVec Ideal S1024x512 .f32) (p : Fin 1024) (q : Fin 2) :
    k0_pay1 v x5 x6 x7 x8 (ix2 p q) = outOf (hid2 (fun k => max (v (ix2 p k)) zeroW) x5 x6) x7 x8 q := by
  unfold k0_pay1 outOf hid2
  simp only [addf_apply, vecRow_apply, shapeCast_self, dot1_eq, dot2_eq]
  simp only [matmul, Cert.Lib.PlainDot.matmul_zero_apply, truncf_apply, maximumf_apply, addf_apply, broadcast_apply, vecRow_apply]
  rfl

/-! ## The stored value at an entry -/

/-- The value the body stores, read at `(p, q)`, is the row function of row `p` of the input block. -/
theorem payload_apply (p : Fin 1024) (q : Fin 2) :
    k0_pay1 (F := Ideal) (k0_pay11 (k0_pay2 x0) (k0_pay3 x0) (k0_pay4 x0 x1 x2) x3 x4 (k0_pay7 x0 x4) (k0_pay9 x0 x3) (k0_pay10 x0 x4))
        x5 x6 x7 x8 (ix2 p q)
      = outRow (fun a => x0 (ix2 p a)) x1 x2 x3 x4 x5 x6 x7 x8 q := by
  rw [out_apply]
  unfold outRow
  refine congrArg (fun h => outOf (hid2 h x5 x6) x7 x8 q) (funext fun k => ?_)
  unfold hid1
  rw [hidden_apply]

end Cert.Mlp.KernelRow

end
-- ==== Proof.Blocks.lean ====
/-
  From the kernel's blocks to its result array.

  The grid has 64 points. At point `t` the input window holds rows `1024·t … 1024·t + 1023` of the input, the eight
  weight windows hold their arrays whole (the two dense weight matrices as the host narrowed them, which changes
  nothing over the extended reals), and what the point writes back is rows `1024·t … 1024·t + 1023` of the result.
  Since the body's stored value at `(p, q)` is the row function of block row `p` (`KernelRow.payload_apply`), the
  point writes block `t` of `Mlp.wholeOut` of the arrays. Row `r` of the result lies in the block of point
  `r / 1024`, so the blocks cover the result, and after the run the result array is `Mlp.wholeOut` of the arguments.
-/
import proofs.«168016_j18631568130181_1_alg».proof.Proof.Gen.KernelIdeal.Value
import proofs.«168016_j18631568130181_1_alg».proof.Proof.KernelRow
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Mlp.Blocks

open Cert.KernelIdeal Cert.KernelIdeal.Gen Cert.KernelIdeal.Value Cert.Mlp

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The index maps over the 64 grid points: the input's and the output's row blocks move with the point, every
    other window stays at block 0. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Row `1024·t + p` of the input array. -/
abbrev rowOf (t : Fin cfg0.N) (p : Fin 1024) : Fin 65536 :=
  ⟨1024 * t.val + p.val, by have := t.isLt; have : cfg0.N = 64 := N_0; have := p.isLt; omega⟩

/-- The input window's block at point `t` is rows `1024·t … 1024·t + 1023` of the input array. -/
theorem iblk0_apply (c : Dev nD) (t : Fin cfg0.N) (p : Fin 1024) (a : Fin 10) :
    (iblk m c 0 t : Vec Ideal S1024x10 .f32) (ix2 p a) = (V m c main_arg0 : S65536x10.Idx → EReal) (ix2 (rowOf t p) a) := by
  obtain ⟨e0, e1, -⟩ := idx_facts t
  unfold iblk
  rw [View.read_apply]
  show V m c main_arg0 _ = V m c main_arg0 _
  congr 1
  funext ax
  apply Fin.ext
  match ax with
  | ⟨0, _⟩ => show win0_0.index t (0 : Fin 2) * 1024 + 1 * p.val = 1024 * t.val + p.val; rw [e0]; omega
  | ⟨1, _⟩ => show win0_0.index t (1 : Fin 2) * 10 + 1 * a.val = a.val; rw [e1]; omega

/-- Window 1 holds the first layer's weight vector whole at every point. -/
theorem iblk1_eq (c : Dev nD) (t : Fin cfg0.N) : (iblk m c 1 t : Vec Ideal S512 _) = V m c main_arg1 := by
  have h := idx_facts t
  funext y
  unfold iblk
  rw [View.read_apply]
  show V m c main_arg1 _ = V m c main_arg1 _
  congr 1
  funext ax
  apply Fin.ext
  match ax with
  | ⟨0, _⟩ => show win0_1.index t (0 : Fin 1) * 512 + 1 * (y 0).val = (y 0).val; rw [h.2.2.2.2.1]; omega

/-- Window 2 holds the first layer's bias whole at every point. -/
theorem iblk2_eq (c : Dev nD) (t : Fin cfg0.N) : (iblk m c 2 t : Vec Ideal S512 _) = V m c main_arg2 := by
  have h := idx_facts t
  funext y
  unfold iblk
  rw [View.read_apply]
  show V m c main_arg2 _ = V m c main_arg2 _
  congr 1
  funext ax
  apply Fin.ext
  match ax with
  | ⟨0, _⟩ => show win0_2.index t (0 : Fin 1) * 512 + 1 * (y 0).val = (y 0).val; rw [h.2.2.2.2.2.1]; omega

/-- Window 3 holds the first expert table whole at every point. -/
theorem iblk3_eq (c : Dev nD) (t : Fin cfg0.N) : (iblk m c 3 t : Vec Ideal S8x512 _) = V m c main_arg3 := by
  have h := idx_facts t
  funext y
  unfold iblk
  rw [View.read_apply]
  show V m c main_arg3 _ = V m c main_arg3 _
  congr 1
  funext ax
  apply Fin.ext
  match ax with
  | ⟨0, _⟩ => show win0_3.index t (0 : Fin 2) * 8 + 1 * (y 0).val = (y 0).val; rw [h.2.2.2.2.2.2.1]; omega
  | ⟨1, _⟩ => show win0_3.index t (1 : Fin 2) * 512 + 1 * (y 1).val = (y 1).val; rw [h.2.2.2.2.2.2.2.1]; omega

/-- Window 4 holds the second expert table whole at every point. -/
theorem iblk4_eq (c : Dev nD) (t : Fin cfg0.N) : (iblk m c 4 t : Vec Ideal S8x512 _) = V m c main_arg4 := by
  have h := idx_facts t
  funext y
  unfold iblk
  rw [View.read_apply]
  show V m c main_arg4 _ = V m c main_arg4 _
  congr 1
  funext ax
  apply Fin.ext
  match ax with
  | ⟨0, _⟩ => show win0_4.index t (0 : Fin 2) * 8 + 1 * (y 0).val = (y 0).val; rw [h.2.2.2.2.2.2.2.2.1]; omega
  | ⟨1, _⟩ => show win0_4.index t (1 : Fin 2) * 512 + 1 * (y 1).val = (y 1).val; rw [h.2.2.2.2.2.2.2.2.2.1]; omega

/-- Window 5 holds the second layer's weights whole at every point. -/
theorem iblk5_eq (c : Dev nD) (t : Fin cfg0.N) : (iblk m c 5 t : Vec Ideal S512x512 _) = V m c main_v0 := by
  have h := idx_facts t
  funext y
  unfold iblk
  rw [View.read_apply]
  show V m c main_v0 _ = V m c main_v0 _
  congr 1
  funext ax
  apply Fin.ext
  match ax with
  | ⟨0, _⟩ => show win0_5.index t (0 : Fin 2) * 512 + 1 * (y 0).val = (y 0).val; rw [h.2.2.2.2.2.2.2.2.2.2.1]; omega
  | ⟨1, _⟩ => show win0_5.index t (1 : Fin 2) * 512 + 1 * (y 1).val = (y 1).val; rw [h.2.2.2.2.2.2.2.2.2.2.2.1]; omega

/-- Window 6 holds the second layer's bias whole at every point. -/
theorem iblk6_eq (c : Dev nD) (t : Fin cfg0.N) : (iblk m c 6 t : Vec Ideal S512 _) = V m c main_arg6 := by
  have h := idx_facts t
  funext y
  unfold iblk
  rw [View.read_apply]
  show V m c main_arg6 _ = V m c main_arg6 _
  congr 1
  funext ax
  apply Fin.ext
  match ax with
  | ⟨0, _⟩ => show win0_6.index t (0 : Fin 1) * 512 + 1 * (y 0).val = (y 0).val; rw [h.2.2.2.2.2.2.2.2.2.2.2.2.1]; omega

/-- Window 7 holds the third layer's weights whole at every point. -/
theorem iblk7_eq (c : Dev nD) (t : Fin cfg0.N) : (iblk m c 7 t : Vec Ideal S512x2 _) = V m c main_v1 := by
  have h := idx_facts t
  funext y
  unfold iblk
  rw [View.read_apply]
  show V m c main_v1 _ = V m c main_v1 _
  congr 1
  funext ax
  apply Fin.ext
  match ax with
  | ⟨0, _⟩ => show win0_7.index t (0 : Fin 2) * 512 + 1 * (y 0).val = (y 0).val; rw [h.2.2.2.2.2.2.2.2.2.2.2.2.2.1]; omega
  | ⟨1, _⟩ => show win0_7.index t (1 : Fin 2) * 2 + 1 * (y 1).val = (y 1).val; rw [h.2.2.2.2.2.2.2.2.2.2.2.2.2.2.1]; omega

/-- Window 8 holds the third layer's bias whole at every point. -/
theorem iblk8_eq (c : Dev nD) (t : Fin cfg0.N) : (iblk m c 8 t : Vec Ideal S2 _) = V m c main_arg8 := by
  have h := idx_facts t
  funext y
  unfold iblk
  rw [View.read_apply]
  show V m c main_arg8 _ = V m c main_arg8 _
  congr 1
  funext ax
  apply Fin.ext
  match ax with
  | ⟨0, _⟩ => show win0_8.index t (0 : Fin 1) * 2 + 1 * (y 0).val = (y 0).val; rw [h.2.2.2.2.2.2.2.2.2.2.2.2.2.2.2]; omega

/-- The second layer's weights as the region finds them: the host's narrowing of the argument. -/
theorem V_w2 (c : Dev nD) : (V m c main_v0 : S512x512.Idx → EReal) = (m ((c : Thread nD τ).loc main_arg5) : S512x512.Idx → EReal) := by
  dsimp only [Gen.V, Gen.hostOps0]
  after_results
  rfl

/-- The whole-array function of the arrays as the region finds them. -/
abbrev GV (c : Dev nD) : S65536x2.Idx → EReal :=
  wholeOut (V m c main_arg0) (V m c main_arg1) (V m c main_arg2) (V m c main_arg3) (V m c main_arg4)
    (V m c main_v0) (V m c main_arg6) (V m c main_v1) (V m c main_arg8)

/-- What point `t` writes back is block `t` of the whole-array function of the arrays as the region finds them. -/
theorem flushed_eq (c : Dev nD) (t : Fin cfg0.N) :
    (dats m 0 c).flushed 9 t = ((cfg0.win 9).blk t).view.read (Elt Ideal) (GV m c) := by
  rw [flushed9]
  unfold out0_9
  rw [View.canon_unit_zero hz2]
  simp only [View.ld_unit_zero (S := S1024x10) hz2, View.ld_unit_zero (S := S512) hz1, View.ld_unit_zero (S := S8x512) hz2,
    View.ld_unit_zero (S := S512x512) hz2, View.ld_unit_zero (S := S512x2) hz2, View.ld_unit_zero (S := S2) hz1]
  funext j
  obtain ⟨p, q, rfl⟩ : ∃ (p : Fin 1024) (q : Fin 2), j = (ix2 p q : S1024x2.Idx) := ⟨j 0, j 1, eq_ix2 j⟩
  rw [View.read_apply]
  refine (KernelRow.payload_apply (iblk m c 0 t) (iblk m c 1 t) (iblk m c 2 t) (iblk m c 3 t) (iblk m c 4 t) (iblk m c 5 t) (iblk m c 6 t) (iblk m c 7 t) (iblk m c 8 t) p q).trans ?_
  have h0 : (fun a => (iblk m c 0 t : Vec Ideal S1024x10 .f32) (ix2 p a))
      = fun a => (V m c main_arg0 : S65536x10.Idx → EReal) (ix2 (rowOf t p) a) := funext fun a => iblk0_apply m c t p a
  rw [h0, iblk1_eq, iblk2_eq, iblk3_eq, iblk4_eq, iblk5_eq, iblk6_eq, iblk7_eq, iblk8_eq]
  have he : ((View.whole main_v2).slice ((win0 9).rect t)).emb (ix2 p q) = (ix2 (rowOf t p) q : S65536x2.Idx) := by
    obtain ⟨-, -, e0, e1, -⟩ := idx_facts t
    funext ax
    apply Fin.ext
    match ax with
    | ⟨0, _⟩ => show win0_9.index t (0 : Fin 2) * 1024 + 1 * p.val = 1024 * t.val + p.val; rw [e0]; omega
    | ⟨1, _⟩ => show win0_9.index t (1 : Fin 2) * 2 + 1 * q.val = q.val; rw [e1]; omega
  show _ = GV m c _
  rw [he]
  rfl

/-- An index of the result lies in point `t`'s block iff each coordinate is in the block's range on its axis. -/
theorem mem_blk (t : Fin cfg0.N) (i : S65536x2.Idx) :
    i ∈ ((cfg0.win 9).blk t).view.set ↔ ∀ a : Fin 2, win0_9.index t a * S1024x2.size a ≤ (i a).val ∧ (i a).val < win0_9.index t a * S1024x2.size a + S1024x2.size a := by
  show i ∈ ((View.whole main_v2).slice (win0_9.rect t)).set ↔ _
  rw [View.set_slice_whole, Rect.mem_set_unit]
  exact Iff.rfl

/-- Row `r` of the result is written back by point `r / 1024`. -/
theorem cover (i : S65536x2.Idx) : ∃ t : Fin cfg0.N, (cfg0.win 9).flush t = true ∧ i ∈ ((cfg0.win 9).blk t).view.set := by
  have hi0 : (i 0).val < 65536 := (i 0).isLt
  have hi1 : (i 1).val < 2 := (i 1).isLt
  have hN : cfg0.N = 64 := N_0
  have ht : (i 0).val / 1024 < cfg0.N := by omega
  obtain ⟨-, -, e0, e1, -⟩ := idx_facts ⟨(i 0).val / 1024, ht⟩
  refine ⟨⟨(i 0).val / 1024, ht⟩, flush0_9 _, ?_⟩
  rw [mem_blk]
  intro a
  match a with
  | ⟨0, _⟩ =>
    show win0_9.index ⟨(i 0).val / 1024, ht⟩ (0 : Fin 2) * 1024 ≤ (i 0).val ∧ (i 0).val < win0_9.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_9.index ⟨(i 0).val / 1024, ht⟩ (1 : Fin 2) * 2 ≤ (i 1).val ∧ (i 1).val < win0_9.index ⟨(i 0).val / 1024, ht⟩ (1 : Fin 2) * 2 + 2
    rw [e1]
    omega

/-- The result array after the run, over the arrays as the region finds them. -/
theorem final (c : Dev nD) : (dats m 0 c).arrAt 9 cfg0.N = GV m c :=
  (dats m 0 c).arrAt_eq_of_cover 9 (GV m c) (fun t _ => flushed_eq m c t) (cover)

/-- The third layer's weights as the region finds them: the host's narrowing of the argument. -/
theorem V_w3 (c : Dev nD) : (V m c main_v1 : S512x2.Idx → EReal) = (m ((c : Thread nD τ).loc main_arg7) : S512x2.Idx → EReal) := by
  dsimp only [Gen.V, Gen.hostOps0]
  after_results
  rfl

/-- The whole-array function of the launch arguments. -/
abbrev G (c : Dev nD) : S65536x2.Idx → EReal :=
  wholeOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The region finds every argument as launched, and the two narrowed matrices equal to their arguments. -/
theorem GV_eq (c : Dev nD) : GV m c = G m c := by
  show wholeOut (V m c main_arg0) (V m c main_arg1) (V m c main_arg2) (V m c main_arg3) (V m c main_arg4)
    (V m c main_v0) (V m c main_arg6) (V m c main_v1) (V m c main_arg8) = _
  rw [V_main_arg0, V_main_arg1, V_main_arg2, V_main_arg3, V_main_arg4, V_w2, V_main_arg6, V_w3, V_main_arg8]

/-- The run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (GV_eq m c)), (h c).2⟩) (run_blocks m ρ)

end Cert.Mlp.Blocks

end
-- ==== Proof.RefRow.lean ====
/-
  The reference, read at one entry of its result.

  The reference works on all 65536 rows at once, but each of its thirty operations is either pointwise, a slice or
  broadcast that only picks an entry, or a matrix product contracting the left operand's columns. So its result at
  `(r, o)` depends on row `r` of the input alone, and is `Mlp.outRow` of that row: the two expert products
  `one_hot @ meta_w` and `one_hot @ meta_b` are the sums over the eight experts, and the two dense layers the sums
  over the 512 hidden units. The whole result is `Mlp.wholeOut`.
-/
import proofs.«168016_j18631568130181_1_alg».proof.Proof.Gen.ReferenceIdeal.Read
import proofs.«168016_j18631568130181_1_alg».proof.Proof.RowSpec

noncomputable section

namespace Cert.Mlp.RefRow

open Cert.ReferenceIdeal Cert.ReferenceIdeal.Read Idealize.ShloMosaic Idealize.ShloMosaic.ValueIdx Cert.Mlp

variable (x0 : FVec Ideal S65536x10 .f32) (x1 x2 : FVec Ideal S512 .f32) (x3 x4 : FVec Ideal S8x512 .f32)
variable (x5 : FVec Ideal S512x512 .f32) (x6 : FVec Ideal S512 .f32) (x7 : FVec Ideal S512x2 .f32) (x8 : FVec Ideal S2 .f32)

/-! ## Where each operation reads its operands, at row `r` and column `j` -/

theorem idx_delta (r : Fin 65536) (j : Fin 512) : idx_main_v1 (idx_main_v4 (ix2 r j)) = ix2 r (8 : Fin 10) :=
  funext fun a => match a with | ⟨0, _⟩ => rfl | ⟨1, _⟩ => rfl

theorem idx_phi (r : Fin 65536) (j : Fin 512) : idx_main_v2 (idx_main_v11 (ix2 r j)) = ix2 r (9 : Fin 10) :=
  funext fun a => match a with | ⟨0, _⟩ => rfl | ⟨1, _⟩ => rfl

theorem idx_w1 (r : Fin 65536) (j : Fin 512) : idx_main_v3 (idx_main_v5 (ix2 r j)) = ix1 j :=
  funext fun a => match a with | ⟨0, _⟩ => rfl

theorem idx_b1 (r : Fin 65536) (j : Fin 512) : idx_main_v7 (idx_main_v8 (ix2 r j)) = ix1 j :=
  funext fun a => match a with | ⟨0, _⟩ => rfl

theorem idx_gw (r : Fin 65536) (j : Fin 512) (k : Fin 8) : idx_main_v0 (lidx_main_v10 (ix2 r j) k) = ix2 r (gcol k) :=
  funext fun a => match a with | ⟨0, _⟩ => rfl | ⟨1, _⟩ => rfl

theorem idx_mw (r : Fin 65536) (j : Fin 512) (k : Fin 8) : ridx_main_v10 (ix2 r j) k = ix2 k j :=
  funext fun a => match a with | ⟨0, _⟩ => rfl | ⟨1, _⟩ => rfl

theorem idx_gb (r : Fin 65536) (j : Fin 512) (k : Fin 8) : idx_main_v0 (lidx_main_v13 (ix2 r j) k) = ix2 r (gcol k) :=
  funext fun a => match a with | ⟨0, _⟩ => rfl | ⟨1, _⟩ => rfl

theorem idx_mb (r : Fin 65536) (j : Fin 512) (k : Fin 8) : ridx_main_v13 (ix2 r j) k = ix2 k j :=
  funext fun a => match a with | ⟨0, _⟩ => rfl | ⟨1, _⟩ => rfl

theorem idx_h1 (r : Fin 65536) (j : Fin 512) (k : Fin 512) : lidx_main_v17 (ix2 r j) k = ix2 r k :=
  funext fun a => match a with | ⟨0, _⟩ => rfl | ⟨1, _⟩ => rfl

theorem idx_w2 (r : Fin 65536) (j : Fin 512) (k : Fin 512) : ridx_main_v17 (ix2 r j) k = ix2 k j :=
  funext fun a => match a with | ⟨0, _⟩ => rfl | ⟨1, _⟩ => rfl

theorem idx_b2 (r : Fin 65536) (j : Fin 512) : idx_main_v18 (idx_main_v19 (ix2 r j)) = ix1 j :=
  funext fun a => match a with | ⟨0, _⟩ => rfl

theorem idx_h2 (r : Fin 65536) (o : Fin 2) (k : Fin 512) : lidx_main_v22 (ix2 r o) k = ix2 r k :=
  funext fun a => match a with | ⟨0, _⟩ => rfl | ⟨1, _⟩ => rfl

theorem idx_w3 (r : Fin 65536) (o : Fin 2) (k : Fin 512) : ridx_main_v22 (ix2 r o) k = ix2 k o :=
  funext fun a => match a with | ⟨0, _⟩ => rfl | ⟨1, _⟩ => rfl

theorem idx_b3 (r : Fin 65536) (o : Fin 2) : idx_main_v23 (idx_main_v24 (ix2 r o)) = ix1 o :=
  funext fun a => match a with | ⟨0, _⟩ => rfl

/-! ## The three layers -/

/-- After the first `relu`: the first hidden layer of row `r`. -/
theorem layer1 (r : Fin 65536) (j : Fin 512) :
    val_main_v16 (F := Ideal) x0 x1 x2 x3 x4 (ix2 r j) = hid1 (fun a => x0 (ix2 r a)) x1 x2 x3 x4 j := by
  rw [val_main_v16_apply, val_main_v15_apply, val_main_v9_apply, val_main_v6_apply, val_main_v4_apply, val_main_v1_apply,
    val_main_v5_apply, val_main_v3_apply, val_main_v8_apply, val_main_v7_apply, val_main_v14_apply, val_main_v12_apply,
    val_main_v11_apply, val_main_v2_apply, val_main_v10_apply, val_main_v13_apply, val_main_call0_v0_apply,
    val_main_call0_cst_apply]
  simp only [val_main_v0_apply, idx_delta, idx_phi, idx_w1, idx_b1, idx_gw, idx_mw, idx_gb, idx_mb,
    Ideal.mulf_def, Ideal.addf_def, Ideal.maximumf_def]
  rfl

/-- After the second `relu`: the second hidden layer of row `r`. -/
theorem layer2 (r : Fin 65536) (j : Fin 512) :
    val_main_v21 (F := Ideal) x0 x1 x2 x3 x4 x5 x6 (ix2 r j)
      = hid2 (hid1 (fun a => x0 (ix2 r a)) x1 x2 x3 x4) x5 x6 j := by
  rw [val_main_v21_apply, val_main_v20_apply, val_main_v17_apply, val_main_v19_apply, val_main_v18_apply,
    val_main_call1_v0_apply, val_main_call1_cst_apply]
  simp only [idx_h1, idx_w2, idx_b2, layer1, Ideal.addf_def, Ideal.maximumf_def]
  rfl

/-- The result at `(r, o)`. -/
theorem layer3 (r : Fin 65536) (o : Fin 2) :
    val_main_v25 (F := Ideal) x0 x1 x2 x3 x4 x5 x6 x7 x8 (ix2 r o)
      = outRow (fun a => x0 (ix2 r a)) x1 x2 x3 x4 x5 x6 x7 x8 o := by
  rw [val_main_v25_apply, val_main_v22_apply, val_main_v24_apply, val_main_v23_apply]
  simp only [idx_h2, idx_w3, idx_b3, layer2, Ideal.addf_def]
  rfl

/-! ## The whole result -/

/-- The reference's last stage is the whole-array function. -/
theorem result_eq :
    val_main_v25 (F := Ideal) x0 x1 x2 x3 x4 x5 x6 x7 x8 = wholeOut x0 x1 x2 x3 x4 x5 x6 x7 x8 := by
  funext i
  obtain ⟨r, o, rfl⟩ : ∃ (r : Fin 65536) (o : Fin 2), i = ix2 r o := ⟨i 0, i 1, eq_ix2 i⟩
  exact layer3 x0 x1 x2 x3 x4 x5 x6 x7 x8 r o

end Cert.Mlp.RefRow

end
-- ==== Proof.lean ====
/-
  The certificate of a fused three-layer network against its plain reference, over the extended reals.

  Both programs map a row `(g₀ … g₇, δ, φ)` of the input to

      h₁ j = max ((δ · w1 j + b1 j) + (φ · ∑ₖ gₖ · mw k j + ∑ₖ gₖ · mb k j)) 0
      h₂ j = max (∑ₖ h₁ k · w2 k j + b2 j) 0
      out o = ∑ₖ h₂ k · w3 k o + b3 o

  (`Mlp.outRow`, Proof/RowSpec.lean). The kernel does it 1024 rows at a time: it adds the eight expert products one
  after the other onto zero, where the reference contracts the expert columns with the two expert tables, and it
  narrows the operands of its two matrix products to bf16, which is the identity on extended reals. Addition of
  extended reals is associative and commutative, so the two expert sums agree with no condition on the inputs, and
  the rest of the two programs is the same expression.

  The kernel's side: Proof/KernelRow.lean (the body's stored value at an entry), Proof/Blocks.lean (the blocks
  cover the result array). The reference's side: Proof/RefRow.lean. The frames of the two kernel programs are the
  generated ones; the reference's frame is its run with the result forgotten; the idealization rewrote nothing.
-/
import proofs.«168016_j18631568130181_1_alg».proof.Defs
import proofs.«168016_j18631568130181_1_alg».proof.Proof.Gen.Kernel
import proofs.«168016_j18631568130181_1_alg».proof.Proof.Gen.Kernel.Skeleton
import proofs.«168016_j18631568130181_1_alg».proof.Proof.Gen.Kernel.Launch
import proofs.«168016_j18631568130181_1_alg».proof.Proof.Gen.Kernel.Points
import proofs.«168016_j18631568130181_1_alg».proof.Proof.Gen.Kernel.Frame
import proofs.«168016_j18631568130181_1_alg».proof.Proof.Gen.KernelIdeal
import proofs.«168016_j18631568130181_1_alg».proof.Proof.Gen.KernelIdeal.Skeleton
import proofs.«168016_j18631568130181_1_alg».proof.Proof.Gen.KernelIdeal.Launch
import proofs.«168016_j18631568130181_1_alg».proof.Proof.Gen.KernelIdeal.Points
import proofs.«168016_j18631568130181_1_alg».proof.Proof.Gen.KernelIdeal.Frame
import proofs.«168016_j18631568130181_1_alg».proof.Proof.Gen.ReferenceIdeal
import proofs.«168016_j18631568130181_1_alg».proof.Proof.Gen.Pre_finite_inputs
import proofs.«168016_j18631568130181_1_alg».proof.Proof.Gen.KernelIdeal.Value
import proofs.«168016_j18631568130181_1_alg».proof.Proof.Gen.ReferenceIdeal.Run
import proofs.«168016_j18631568130181_1_alg».proof.Proof.Gen.ReferenceIdeal.Read
import proofs.«168016_j18631568130181_1_alg».proof.Proof.Blocks
import proofs.«168016_j18631568130181_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at `Mlp.wholeOut` of the arguments, which agree. -/
theorem algebraic : Cert.algebraic_KernelIdeal_ReferenceIdeal := by
  intro m ρ m' ρ' _ hagree
  refine ⟨fun c => Cert.Mlp.Blocks.G m c, Cert.Mlp.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Mlp.RefRow.result_eq]
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
